-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S131072 .f32) (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x512x4096 .f32) (main_arg1 : FVec F S4096x4096 .f32) (main_arg2 : FVec F S16x4096 .f32) (main_arg3 : FVec F S4096x16 .f32) (main_arg4 : FVec F S131072 .f32) (main_arg5 : FVec F S4096 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S2x512x4096 : Shape := ⟨3, ![2, 512, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S1024x4096 : Shape := ⟨2, ![1024, 4096]⟩
abbrev S4096x32 : Shape := ⟨2, ![4096, 32]⟩
abbrev S1x4096 : Shape := ⟨2, ![1, 4096]⟩
abbrev S128x4096 : Shape := ⟨2, ![128, 4096]⟩
abbrev S128x16 : Shape := ⟨2, ![128, 16]⟩
abbrev S128x32 : Shape := ⟨2, ![128, 32]⟩
abbrev S1x128 : Shape := ⟨2, ![1, 128]⟩
abbrev S1024x128 : Shape := ⟨2, ![1024, 128]⟩
abbrev S128x32x128 : Shape := ⟨3, ![128, 32, 128]⟩
abbrev S128x32x1 : Shape := ⟨3, ![128, 32, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x512x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S131072, .f32⟩
  | .hbm, ⟨5, _⟩ => ⟨S4096, .f32⟩
  | .hbm, ⟨6, _⟩ => ⟨S1024x4096, .f32⟩
  | .hbm, ⟨7, _⟩ => ⟨S4096x32, .f32⟩
  | .hbm, ⟨8, _⟩ => ⟨S1x4096, .f32⟩
  | .hbm, ⟨9, _⟩ => ⟨S1024x4096, .f32⟩
  | .hbm, ⟨10, _⟩ => ⟨S2x512x4096, .f32⟩
  | .local _ .vmem, ⟨0, _⟩ => ⟨S1024x4096, .f32⟩
  | .local _ .vmem, ⟨1, _⟩ => ⟨S128x4096, .f32⟩
  | .local _ .vmem, ⟨2, _⟩ => ⟨S128x4096, .f32⟩
  | .local _ .vmem, ⟨3, _⟩ => ⟨S128x16, .f32⟩
  | .local _ .vmem, ⟨4, _⟩ => ⟨S128x16, .f32⟩
  | .local _ .vmem, ⟨5, _⟩ => ⟨S16x4096, .f32⟩
  | .local _ .vmem, ⟨6, _⟩ => ⟨S128x32, .f32⟩
  | .local _ .vmem, ⟨7, _⟩ => ⟨S128x32, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2x512x4096_S1024x4096 : S2x512x4096.ShapeCasts S1024x4096
  shapeCasts_S131072_S4096x32 : S131072.ShapeCasts S4096x32
  shapeCasts_S4096_S1x4096 : S4096.ShapeCasts S1x4096
  inb_S128x16_S128x16_0_0 : ∀ a, (![0, 0] : Fin 2 → Nat) a + S128x16.size a ≤ S128x16.size a
  h_S128x16 : 0 < S128x16.numel
  inb_S16x4096_S16x4096_0_0 : ∀ a, (![0, 0] : Fin 2 → Nat) a + S16x4096.size a ≤ S16x4096.size a
  h_S16x4096 : 0 < S16x4096.numel
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x4096_S2x512x4096 : S1024x4096.ShapeCasts S2x512x4096
  dot_S128x16_S16x4096_S128x4096_1_0_0_1_n_n_wf : DotDims.WF S128x16 S16x4096 S128x4096 [1] [0] [0] [1] [] []
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S4096x16.size a
  hwx0_2 : ∀ i : grid0.Coords, EltTy.bits .f32 = 32 ∨ (Rect.block (s := S4096x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S4096x32.size a
  hwx0_4 : ∀ i : grid0.Coords, EltTy.bits .f32 = 32 ∨ (Rect.block (s := S4096x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x4096.size a
  hwx0_6 : ∀ i : grid0.Coords, EltTy.bits .f32 = 32 ∨ (Rect.block (s := S1024x4096) S1024x128.size (cc0_transform_6 i) (hinb0_6 i)).WholeWords (EltTy.packing .f32)

variable [Facts₀]

def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf
def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S_ : Shape := ⟨0, ![]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S131072, .f32⟩
  | .hbm, ⟨5, _⟩ => ⟨S4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S131072x128, .f32⟩
  | .hbm, ⟨12, _⟩ => ⟨S131072x1, .f32⟩
  | .hbm, ⟨13, _⟩ => ⟨S_, .f32⟩
  | .hbm, ⟨14, _⟩ => ⟨S131072x1, .f32⟩
  | .hbm, ⟨15, _⟩ => ⟨S131072x1, .f32⟩
  | .hbm, ⟨16, _⟩ => ⟨S131072x128, .f32⟩
  | .hbm, ⟨17, _⟩ => ⟨S131072x128, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S4096x4096, .f32⟩
  | .hbm, ⟨30, _⟩ => ⟨S2x512x4096, .f32⟩
  | .hbm, ⟨31, _⟩ => ⟨S1x1x4096, .f32⟩
  | .hbm, ⟨32, _⟩ => ⟨S2x512x4096, .f32⟩
  | .hbm, ⟨33, _⟩ => ⟨S2x512x4096, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S131072x128 : S4096x4096.ShapeCasts S131072x128
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S2x512x4096_0_1_2 : S1x1x4096.BroadcastsInDim S2x512x4096 (![0, 1, 2] : Fin 3 → Fin S2x512x4096.rank)
  dot_S4096x16_S16x4096_S4096x4096_1_0_0_1_n_n_wf : DotDims.WF S4096x16 S16x4096 S4096x4096 [1] [0] [0] [1] [] []
  dot_S2x512x4096_S4096x4096_S2x512x4096_2_1_01_0_n_n_wf : DotDims.WF S2x512x4096 S4096x4096 S2x512x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2x512x4096_S4096x4096_S2x512x4096_2_1_01_0_n_n : DotDims S2x512x4096 S4096x4096 S2x512x4096 where
  lhsContracting := [2]
  rhsContracting := [1]
  lhsNonContracting := [0, 1]
  rhsNonContracting := [0]
  lhsBatch := []
  rhsBatch := []
  wf := dot_S2x512x4096_S4096x4096_S2x512x4096_2_1_01_0_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotT.lean ====
/-
  A matrix product whose two operands are BOTH contracted on their last axis — an `M × K` left operand against an
  `N × K` right operand, no batch axis — read at an entry at the ideal values: with the zero accumulator the entry
  (a, b) is the sum over the shared coordinate `c` of `A (a, c) · B (b, c)`. Stated for any dimension-numbers record
  whose axis lists are these (a printed record satisfies each hypothesis by `rfl`).
-/
import proofs.«155282_j80745385165259_1_alg».proof.Proof.LibDot

noncomputable section

open scoped BigOperators

namespace Cert.LibDot

open Idealize.ShloMosaic Idealize.ShloMosaic.ValueIdx

/-- Rows by rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Spec.lean ====
/-
  The function both programs compute, over the extended reals.

  A 4096 × 4096 weight is first corrected by a rank-16 product, `w0 + 1 · (lora_b · lora_a)`; each run of 128
  consecutive entries of a row shares one scale `s` (row `n`, column `k` uses scale number `32 n + k / 128`); the
  entry is divided by `s + ε`, clamped to [-8, 7], rounded to the nearest integer (ties to even) and multiplied
  by `s` again. The result `wq` multiplies the input rows: `out (b, s, n) = Σ_k x (b, s, k) · wq (n, k) + bias n`.
  The constants `1` and `ε` are kept as the binary words both programs spell; the clamp bounds are the reals -8 and 7,
  which one program spells as float words and the other as converted integers (the four lemmas at the end).
-/
import Idealize.ShloMosaic.Lib.ValueIdx
import Idealize.ShloMosaic.PureOps.Ideal.Laws

noncomputable section

open scoped BigOperators

namespace Cert.Spec

open Idealize.ShloMosaic Idealize.ShloMosaic.ValueIdx

/-- The word both programs multiply the low-rank product by (the float 1.0). -/
abbrev one : EReal := Ideal.ofBits .f32 0x3F800000#32
/-- The word both programs add to a scale before dividing by it. -/
abbrev eps : EReal := Ideal.ofBits .f32 0x3089705F#32

/-- One weight `w` quantised with scale `s`: divide by `s + ε`, clamp to [-8, 7], round half to even, scale back. -/
def quant (w s : EReal) : EReal :=
  Ideal.liftRound Ideal.roundHalfEven (min ((7 : ℝ) : EReal) (max ((-8 : ℝ) : EReal) (Ideal.div w (s + eps)))) * s

/-- The corrected weight at row `n`, column `k`, for a weight block of `R` rows. -/
def wcomb {R : Nat} (w0 : (⟨2, ![R, 4096]⟩ : Shape).Idx → EReal) (la : (⟨2, ![16, 4096]⟩ : Shape).Idx → EReal)
    (lb : (⟨2, ![R, 16]⟩ : Shape).Idx → EReal) (n : Fin R) (k : Fin 4096) : EReal :=
  w0 (ix2 n k) + one * ∑ r : Fin 16, lb (ix2 n r) * la (ix2 r k)

/-- The number of the scale that row `n`, column `k` of the whole weight uses. -/
def grp (n k : Fin 4096) : Fin 131072 := ⟨n.val * 32 + k.val / 128, by have := n.isLt; have := k.isLt; omega⟩

/-- The column of a 32-column scale table that column `k` of a weight row uses. -/
def lane (k : Fin 4096) : Fin 32 := ⟨k.val / 128, by have := k.isLt; omega⟩

/-- The quantised weight at row `n`, column `k`, the scales given as one flat list. -/
def wq (w0 : (⟨2, ![4096, 4096]⟩ : Shape).Idx → EReal) (la : (⟨2, ![16, 4096]⟩ : Shape).Idx → EReal)
    (lb : (⟨2, ![4096, 16]⟩ : Shape).Idx → EReal) (qs : (⟨1, ![131072]⟩ : Shape).Idx → EReal) (n k : Fin 4096) : EReal :=
  quant (wcomb w0 la lb n k) (qs (ix1 (grp n k)))

/-- The result at batch `b`, position `s`, output feature `n`: `Σ_k x (b, s, k) · wq (n, k) + bias n`. -/
def out (x : (⟨3, ![2, 512, 4096]⟩ : Shape).Idx → EReal) (w0 : (⟨2, ![4096, 4096]⟩ : Shape).Idx → EReal)
    (la : (⟨2, ![16, 4096]⟩ : Shape).Idx → EReal) (lb : (⟨2, ![4096, 16]⟩ : Shape).Idx → EReal)
    (qs : (⟨1, ![131072]⟩ : Shape).Idx → EReal) (bias : (⟨1, ![4096]⟩ : Shape).Idx → EReal)
    (b : Fin 2) (s : Fin 512) (n : Fin 4096) : EReal :=
  (∑ k : Fin 4096, x (ix3 b s k) * wq w0 la lb qs n k) + bias (ix1 n)

/-- The result array. -/
def G (x : (⟨3, ![2, 512, 4096]⟩ : Shape).Idx → EReal) (w0 : (⟨2, ![4096, 4096]⟩ : Shape).Idx → EReal)
    (la : (⟨2, ![16, 4096]⟩ : Shape).Idx → EReal) (lb : (⟨2, ![4096, 16]⟩ : Shape).Idx → EReal)
    (qs : (⟨1, ![131072]⟩ : Shape).Idx → EReal) (bias : (⟨1, ![4096]⟩ : Shape).Idx → EReal) :
    (⟨3, ![2, 512, 4096]⟩ : Shape).Idx → EReal := fun i => out x w0 la lb qs bias (i 0) (i 1) (i 2)

theorem G_ix3 (x : (⟨3, ![2, 512, 4096]⟩ : Shape).Idx → EReal) (w0 : (⟨2, ![4096, 4096]⟩ : Shape).Idx → EReal)
    (la : (⟨2, ![16, 4096]⟩ : Shape).Idx → EReal) (lb : (⟨2, ![4096, 16]⟩ : Shape).Idx → EReal)
    (qs : (⟨1, ![131072]⟩ : Shape).Idx → EReal) (bias : (⟨1, ![4096]⟩ : Shape).Idx → EReal)
    (b : Fin 2) (s : Fin 512) (n : Fin 4096) : G x w0 la lb qs bias (ix3 b s n) = out x w0 la lb qs bias b s n := rfl

/-! ## The clamp bounds, as each program spells them -/

/-- The float word of -8.0 is the real -8. -/
theorem ofBits_neg8 : Ideal.ofBits .f32 0xC1000000#32 = ((-8 : ℝ) : EReal) := by
  simp [Ideal.ofBits, Ideal.ieee, -EReal.coe_mul]; norm_num

/-- The float word of 7.0 is the real 7. -/
theorem ofBits_7 : Ideal.ofBits .f32 0x40E00000#32 = ((7 : ℝ) : EReal) := by
  simp [Ideal.ofBits, Ideal.ieee, -EReal.coe_mul]; norm_num

/-- The 32-bit integer word of -8, converted to a float, is the real -8. -/
theorem sitofp_neg8 : FloatOps.sitofp (F := Ideal) .f32 (4294967288#32 : BitVec 32) = ((-8 : ℝ) : EReal) := by
  show (((4294967288#32 : BitVec 32).toInt : ℝ) : EReal) = _
  have h : (4294967288#32 : BitVec 32).toInt = -8 := by decide
  rw [h]; norm_num

/-- The 32-bit integer word of 7, converted to a float, is the real 7. -/
theorem sitofp_7 : FloatOps.sitofp (F := Ideal) .f32 (7#32 : BitVec 32) = ((7 : ℝ) : EReal) := by
  show (((7#32 : BitVec 32).toInt : ℝ) : EReal) = _
  have h : (7#32 : BitVec 32).toInt = 7 := by decide
  rw [h]; norm_num

end Cert.Spec

end
-- ==== Proof.KernelPayload.lean ====
/-
  The value the kernel body stores, entry by entry.

  At one grid point the body holds 128 rows of the weight. It corrects them by the rank-16 product (rows of `lora_b`
  against the columns of `lora_a`), views each row of 4096 as 32 runs of 128, divides run `g` of row `n` by the scale
  `(n, g)` plus `ε`, clamps, rounds and rescales, and views the runs as one row again: column `k` of a row lies in
  run `k / 128` at place `k % 128`. The 1024 input rows are then contracted with these 128 quantised rows over the
  4096 columns, and the bias row is added: entry (p, n) is `Σ_k x (p, k) · wq (n, k) + bias (0, n)`.
  Narrowing to bf16 is the identity on the extended reals, and a matrix product into the zero accumulator is the sum.
-/
import proofs.«155282_j80745385165259_1_alg».proof.Proof.Gen.KernelIdeal.Skeleton
import proofs.«155282_j80745385165259_1_alg».proof.Proof.LibDotT
import proofs.«155282_j80745385165259_1_alg».proof.Proof.Spec
import Idealize.ShloMosaic.Lib.Pipeline.Value
import Idealize.ShloMosaic.Lib.ValueLayout

noncomputable section

open scoped BigOperators

namespace Cert.KPay

open Cert.KernelIdeal Idealize.ShloMosaic Idealize.ShloMosaic.ValueIdx Cert.Spec

section Pieces
variable {F : FTy → Type} [FloatOps F]

/-! ## The body's value in three pieces -/

/-- The corrected weight rows: `w0 + 1 · (lora_b · lora_a)`. -/
def wcombBlk (v0 : Vec F S128x16 .f32) (v1 : Vec F S16x4096 .f32) (v3 : Vec F S128x4096 .f32) :
    FVec F S128x4096 .f32 :=
  addf v3 (mulf (broadcast S128x4096 (Scalar.ofBits .f32 0x3F800000#32))
    (matmul dot_S128x16_S16x4096_S128x4096_1_0_0_1_n_n (some .fp32) v0 v1 (constant S128x4096 .f32 0x00000000#32)))

/-- The scale table with a trailing unit axis. -/
def scaleCol (v8 : Vec F S128x32 .f32) : FVec F S128x32x1 .f32 :=
  shapeCast S128x32x1 (shapeCast S128x32 v8 Gen.shapeCasts_S128x32_S128x32) Gen.shapeCasts_S128x32_S128x32x1

/-- Quantisation over the 128 × 32 × 128 view: divide by the run's scale plus ε, clamp, round, rescale. -/
def quantRuns (v7 : FVec F S128x32x128 .f32) (v10 : FVec F S128x32x1 .f32) : FVec F S128x32x128 .f32 :=
  mulf (roundeven (minimumf (broadcast S128x32x128 (Scalar.ofBits .f32 0x40E00000#32))
      (maximumf (broadcast S128x32x128 (Scalar.ofBits .f32 0xC1000000#32))
        (divf v7 (broadcastTo S128x32x128 (addf v10 (broadcast S128x32x1 (Scalar.ofBits .f32 0x3089705F#32)))
          Gen.broadcasts_S128x32x1_S128x32x128)))))
    (broadcastTo S128x32x128 v10 Gen.broadcasts_S128x32x1_S128x32x128)

/-- The quantised weight rows. -/
def wqBlk (v6 : FVec F S128x4096 .f32) (v8 : Vec F S128x32 .f32) : FVec F S128x4096 .f32 :=
  shapeCast S128x4096 (quantRuns (shapeCast S128x32x128 v6 Gen.shapeCasts_S128x4096_S128x32x128) (scaleCol v8))
    Gen.shapeCasts_S128x32x128_S128x4096

/-- The contraction with the input rows, plus the bias row. -/
def outBlk (v22 : FVec F S128x4096 .f32) (v24 : Vec F S1024x4096 .f32) (v28 : Vec F S1x128 .f32) :
    FVec F S1024x128 .f32 :=
  addf (matmul dot_S1024x4096_S128x4096_S1024x128_1_1_0_0_n_n none
      (truncf .bf16 (shapeCast S1024x4096 v24 Gen.shapeCasts_S1024x4096_S1024x4096) Gen.bitsLt_bf16_f32)
      (truncf .bf16 v22 Gen.bitsLt_bf16_f32) (constant S1024x128 .f32 0x00000000#32))
    (broadcastTo S1024x128 (shapeCast S1x128 v28 Gen.shapeCasts_S1x128_S1x128) Gen.broadcasts_S1x128_S1024x128)

/-- The stored value is the three pieces composed. -/
theorem pay_eq (v0 : Vec F S128x16 .f32) (v1 : Vec F S16x4096 .f32) (v3 : Vec F S128x4096 .f32)
    (v8 : Vec F S128x32 .f32) (v24 : Vec F S1024x4096 .f32) (v28 : Vec F S1x128 .f32) :
    Gen.k0_pay1 v0 v1 v3 v8 v24 v28 = outBlk (wqBlk (wcombBlk v0 v1 v3) v8) v24 v28 := rfl

end Pieces

/-! ## Each piece at an entry -/

theorem wcombBlk_apply (v0 : Vec Ideal S128x16 .f32) (v1 : Vec Ideal S16x4096 .f32) (v3 : Vec Ideal S128x4096 .f32)
    (n : Fin 128) (k : Fin 4096) : wcombBlk (F := Ideal) v0 v1 v3 (ix2 n k) = wcomb v3 v1 v0 n k := by
  unfold wcombBlk wcomb
  rw [addf_apply, mulf_apply, broadcast_apply, LibDot.matmul_10_zero_apply _ rfl rfl rfl rfl rfl rfl]
  rfl

/-- The trailing unit axis reads the table's entry. -/
theorem scaleCol_apply (v8 : Vec Ideal S128x32 .f32) (n : Fin 128) (g : Fin 32) (u : Fin 1) :
    scaleCol (F := Ideal) v8 (ix3 n g u) = v8 (ix2 n g) := by
  unfold scaleCol
  rw [shapeCast_self]
  refine shapeCast_apply _ _ _ _ ?_
  rw [Shape.rowMajor_val_three, Shape.rowMajor_val_two]
  show n.val * 32 + g.val = (n.val * 32 + g.val) * 1 + u.val
  have := u.isLt
  omega

/-- A column broadcast along the last axis reads the column. -/
theorem bcastCol_apply (y : FVec Ideal S128x32x1 .f32) (n : Fin 128) (g : Fin 32) (l : Fin 128) :
    broadcastTo S128x32x128 y Gen.broadcasts_S128x32x1_S128x32x128 (ix3 n g l) = y (ix3 n g (0 : Fin 1)) := by
  refine broadcastTo_apply y _ (ix3 n g l) (ix3 n g (0 : Fin 1)) fun a => ?_
  match a with
  | ⟨0, _⟩ => show n.val = if (128 : Nat) = 1 then 0 else n.val; rw [if_neg (by decide)]
  | ⟨1, _⟩ => show g.val = if (32 : Nat) = 1 then 0 else g.val; rw [if_neg (by decide)]
  | ⟨2, _⟩ => show 0 = if (1 : Nat) = 1 then 0 else l.val; rw [if_pos rfl]

theorem quantRuns_apply (v7 : FVec Ideal S128x32x128 .f32) (v10 : FVec Ideal S128x32x1 .f32)
    (n : Fin 128) (g : Fin 32) (l : Fin 128) :
    quantRuns (F := Ideal) v7 v10 (ix3 n g l) = quant (v7 (ix3 n g l)) (v10 (ix3 n g (0 : Fin 1))) := by
  unfold quantRuns quant
  rw [mulf_apply, bcastCol_apply]
  show Ideal.liftRound Ideal.roundHalfEven (min (Ideal.ofBits .f32 0x40E00000#32) (max (Ideal.ofBits .f32 0xC1000000#32)
    (Ideal.div (v7 (ix3 n g l)) (broadcastTo S128x32x128 (addf v10 (broadcast S128x32x1 (Scalar.ofBits .f32 0x3089705F#32)))
      Gen.broadcasts_S128x32x1_S128x32x128 (ix3 n g l))))) * _ = _
  rw [bcastCol_apply, ofBits_7, ofBits_neg8]
  rfl

/-- The place of column `k` inside its run of 128. -/
def place (k : Fin 4096) : Fin 128 := ⟨k.val % 128, Nat.mod_lt _ (by decide)⟩

/-- A row of 4096 viewed as 32 runs of 128: run `k / 128`, place `k % 128` is column `k`. -/
theorem split_apply (v6 : FVec Ideal S128x4096 .f32) (n : Fin 128) (k : Fin 4096) :
    shapeCast S128x32x128 v6 Gen.shapeCasts_S128x4096_S128x32x128 (ix3 n (lane k) (place k)) = v6 (ix2 n k) := by
  refine shapeCast_apply _ _ _ _ ?_
  rw [Shape.rowMajor_val_three, Shape.rowMajor_val_two]
  show n.val * 4096 + k.val = (n.val * 32 + k.val / 128) * 128 + k.val % 128
  omega

/-- The runs viewed as one row again. -/
theorem merge_apply (v21 : FVec Ideal S128x32x128 .f32) (n : Fin 128) (k : Fin 4096) :
    shapeCast S128x4096 v21 Gen.shapeCasts_S128x32x128_S128x4096 (ix2 n k) = v21 (ix3 n (lane k) (place k)) := by
  refine shapeCast_apply _ _ _ _ ?_
  rw [Shape.rowMajor_val_three, Shape.rowMajor_val_two]
  show (n.val * 32 + k.val / 128) * 128 + k.val % 128 = n.val * 4096 + k.val
  omega

theorem wqBlk_apply (v6 : FVec Ideal S128x4096 .f32) (v8 : Vec Ideal S128x32 .f32) (n : Fin 128) (k : Fin 4096) :
    wqBlk (F := Ideal) v6 v8 (ix2 n k) = quant (v6 (ix2 n k)) (v8 (ix2 n (lane k))) := by
  unfold wqBlk
  rw [merge_apply, quantRuns_apply, split_apply, scaleCol_apply]

theorem outBlk_apply (v22 : FVec Ideal S128x4096 .f32) (v24 : Vec Ideal S1024x4096 .f32) (v28 : Vec Ideal S1x128 .f32)
    (p : Fin 1024) (n : Fin 128) :
    outBlk (F := Ideal) v22 v24 v28 (ix2 p n) = (∑ k : Fin 4096, v24 (ix2 p k) * v22 (ix2 n k)) + v28 (ix2 (0 : Fin 1) n) := by
  unfold outBlk
  rw [addf_apply, LibDot.matmul_11_zero_apply _ rfl rfl rfl rfl rfl rfl, broadcastTo_1b_ab_apply, shapeCast_self,
    shapeCast_self]
  rfl

/-- The stored value at entry (p, n). -/
theorem pay_apply (v0 : Vec Ideal S128x16 .f32) (v1 : Vec Ideal S16x4096 .f32) (v3 : Vec Ideal S128x4096 .f32)
    (v8 : Vec Ideal S128x32 .f32) (v24 : Vec Ideal S1024x4096 .f32) (v28 : Vec Ideal S1x128 .f32)
    (p : Fin 1024) (n : Fin 128) :
    Gen.k0_pay1 (F := Ideal) v0 v1 v3 v8 v24 v28 (ix2 p n)
      = (∑ k : Fin 4096, v24 (ix2 p k) * quant (wcomb v3 v1 v0 n k) (v8 (ix2 n (lane k)))) + v28 (ix2 (0 : Fin 1) n) := by
  rw [pay_eq, outBlk_apply]
  simp only [wqBlk_apply, wcombBlk_apply]

end Cert.KPay

end
-- ==== Proof.KernelSpec.lean ====
/-
  The array the kernel's one region writes, as one function of the arrays it reads, and why its blocks and its
  reshaped view are the specified function.

  The region writes a 1024 × 4096 array `Y`: row `p` is input row `p` of the 2 × 512 × 4096 input viewed as
  1024 × 4096, column `j` is output feature `j`: `Y (p, j) = Σ_k X (p, k) · wq (j, k) + B (0, j)`, the scales read
  from a 4096 × 32 table (row `j`, column `k / 128`) and the bias from a 1 × 4096 row. Grid point `t` computes columns
  `128 t … 128 t + 127` from rows `128 t …` of the weight, of `lora_b` and of the scale table. Viewed as 2 × 512 × 4096,
  with the three reshaped inputs read back at their flat positions, `Y` is the specification's result.
-/
import proofs.«155282_j80745385165259_1_alg».proof.Proof.KernelPayload

noncomputable section

open scoped BigOperators

namespace Cert.KSpec

open Cert.KernelIdeal Idealize.ShloMosaic Idealize.ShloMosaic.ValueIdx Cert.Spec

/-- Entry (p, j) of the region's output array. -/
def outRow (X : S1024x4096.Idx → EReal) (W0 : S4096x4096.Idx → EReal) (LA : S16x4096.Idx → EReal)
    (LB : S4096x16.Idx → EReal) (QS : S4096x32.Idx → EReal) (B : S1x4096.Idx → EReal) (p : Fin 1024) (j : Fin 4096) : EReal :=
  (∑ k : Fin 4096, X (ix2 p k) * quant (wcomb W0 LA LB j k) (QS (ix2 j (lane k)))) + B (ix2 (0 : Fin 1) j)

/-- The region's output array. -/
def Y (X : S1024x4096.Idx → EReal) (W0 : S4096x4096.Idx → EReal) (LA : S16x4096.Idx → EReal)
    (LB : S4096x16.Idx → EReal) (QS : S4096x32.Idx → EReal) (B : S1x4096.Idx → EReal) : S1024x4096.Idx → EReal :=
  fun i => outRow X W0 LA LB QS B (i 0) (i 1)

theorem Y_ix2 (X : S1024x4096.Idx → EReal) (W0 : S4096x4096.Idx → EReal) (LA : S16x4096.Idx → EReal)
    (LB : S4096x16.Idx → EReal) (QS : S4096x32.Idx → EReal) (B : S1x4096.Idx → EReal) (p : Fin 1024) (j : Fin 4096) :
    Y X W0 LA LB QS B (ix2 p j) = outRow X W0 LA LB QS B p j := rfl

/-- The array coordinate of place `q` of the `t`-th run of 128. -/
def col (t : Nat) (ht : t < 32) (q : Fin 128) : Fin 4096 := ⟨t * 128 + q.val, by have := q.isLt; omega⟩

/-- What the body stores at grid point `t`, place (p, q), is the output array's entry (p, 128 t + q), when the
    body's six loaded blocks are the blocks of the six arrays at point `t`. -/
theorem blk_value (X : S1024x4096.Idx → EReal) (W0 : S4096x4096.Idx → EReal) (LA : S16x4096.Idx → EReal)
    (LB : S4096x16.Idx → EReal) (QS : S4096x32.Idx → EReal) (B : S1x4096.Idx → EReal) (t : Nat) (ht : t < 32)
    (x0 : Vec Ideal S1024x4096 .f32) (x1 : Vec Ideal S128x4096 .f32) (x2 : Vec Ideal S128x16 .f32)
    (x3 : Vec Ideal S16x4096 .f32) (x4 : Vec Ideal S128x32 .f32) (x5 : Vec Ideal S1x128 .f32)
    (h0 : ∀ (p : Fin 1024) (k : Fin 4096), x0 (ix2 p k) = X (ix2 p k))
    (h1 : ∀ (n : Fin 128) (k : Fin 4096), x1 (ix2 n k) = W0 (ix2 (col t ht n) k))
    (h2 : ∀ (n : Fin 128) (r : Fin 16), x2 (ix2 n r) = LB (ix2 (col t ht n) r))
    (h3 : ∀ (r : Fin 16) (k : Fin 4096), x3 (ix2 r k) = LA (ix2 r k))
    (h4 : ∀ (n : Fin 128) (g : Fin 32), x4 (ix2 n g) = QS (ix2 (col t ht n) g))
    (h5 : ∀ (n : Fin 128), x5 (ix2 (0 : Fin 1) n) = B (ix2 (0 : Fin 1) (col t ht n)))
    (p : Fin 1024) (q : Fin 128) :
    Gen.k0_pay1 (F := Ideal) x2 x3 x1 x4 x0 x5 (ix2 p q) = outRow X W0 LA LB QS B p (col t ht q) := by
  rw [KPay.pay_apply]
  unfold outRow wcomb
  simp only [h0, h1, h2, h3, h4, h5]

/-! ## The reshaped inputs read back, and the output viewed as 2 × 512 × 4096 -/

/-- Row `b · 512 + s` of the 1024-row view. -/
def flatRow (b : Fin 2) (s : Fin 512) : Fin 1024 := ⟨b.val * 512 + s.val, by have := b.isLt; have := s.isLt; omega⟩

theorem x_view (x : S2x512x4096.Idx → EReal) (h : S2x512x4096.ShapeCasts S1024x4096) (b : Fin 2) (s : Fin 512) (k : Fin 4096) :
    shapeCast S1024x4096 x h (ix2 (flatRow b s) k) = x (ix3 b s k) := by
  refine shapeCast_apply _ _ _ _ ?_
  rw [Shape.rowMajor_val_three, Shape.rowMajor_val_two]
  rfl

theorem qs_view (qs : S131072.Idx → EReal) (h : S131072.ShapeCasts S4096x32) (n k : Fin 4096) :
    shapeCast S4096x32 qs h (ix2 n (lane k)) = qs (ix1 (grp n k)) := by
  refine shapeCast_apply _ _ _ _ ?_
  rw [Shape.rowMajor_val_one, Shape.rowMajor_val_two]
  rfl

theorem bias_view (bias : S4096.Idx → EReal) (h : S4096.ShapeCasts S1x4096) (n : Fin 4096) :
    shapeCast S1x4096 bias h (ix2 (0 : Fin 1) n) = bias (ix1 n) := by
  refine shapeCast_apply _ _ _ _ ?_
  rw [Shape.rowMajor_val_one, Shape.rowMajor_val_two]
  show n.val = 0 * 4096 + n.val
  omega

/-- The output array over the reshaped inputs, viewed as 2 × 512 × 4096, is the specified function. -/
theorem Y_view (x : S2x512x4096.Idx → EReal) (w0 : S4096x4096.Idx → EReal) (la : S16x4096.Idx → EReal)
    (lb : S4096x16.Idx → EReal) (qs : S131072.Idx → EReal) (bias : S4096.Idx → EReal)
    (hx : S2x512x4096.ShapeCasts S1024x4096) (hq : S131072.ShapeCasts S4096x32) (hb : S4096.ShapeCasts S1x4096)
    (ho : S1024x4096.ShapeCasts S2x512x4096) :
    shapeCast S2x512x4096 (Y (shapeCast S1024x4096 x hx) w0 la lb (shapeCast S4096x32 qs hq) (shapeCast S1x4096 bias hb)) ho
      = G x w0 la lb qs bias := by
  funext i
  obtain ⟨b, s, n, rfl⟩ : ∃ (b : Fin 2) (s : Fin 512) (n : Fin 4096), i = ix3 b s n := ⟨i 0, i 1, i 2, eq_ix3 i⟩
  rw [G_ix3, shapeCast_apply _ ho (ix3 b s n) (ix2 (flatRow b s) n) (by
    rw [Shape.rowMajor_val_three, Shape.rowMajor_val_two]; rfl), Y_ix2]
  unfold outRow out wq
  simp only [x_view, qs_view, bias_view]

end Cert.KSpec

end
-- ==== Proof.KernelValue.lean ====
/-
  The kernel program's result array.

  The one region runs over 32 grid points. Point `t` reads the whole 1024 × 4096 input view and the whole `lora_a`,
  rows `128 t … 128 t + 127` of the weight, of `lora_b` and of the 4096 × 32 scale table, and columns `128 t …` of the
  1 × 4096 bias row, and writes columns `128 t …` of the 1024 × 4096 output. So what point `t` writes back is block `t`
  of the one function `Y` of the six arrays; the 32 column blocks cover the output, which therefore ends as `Y`. Before
  the region the program only reshapes three arguments, after it it reshapes the output to 2 × 512 × 4096: the result is
  the specified function of the arguments.
-/
import proofs.«155282_j80745385165259_1_alg».proof.Proof.Gen.KernelIdeal.Frame
import proofs.«155282_j80745385165259_1_alg».proof.Proof.KernelSpec
import Idealize.ShloMosaic.Lib.Pipeline.Value
import Idealize.ShloMosaic.Lib.StableHlo.Run

set_option maxRecDepth 16384

noncomputable section

namespace Cert.KVal

open Cert.KernelIdeal Cert.KernelIdeal.Gen Idealize.ShloMosaic Idealize.ShloMosaic.TcCoe Idealize.SL.Sem
open Idealize.ShloMosaic.ValueIdx Cert.Spec Cert.KSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 32 points. -/
theorem t_lt (t : Fin cfg0.N) : t.val < 32 := lt_of_lt_of_eq t.isLt N_0

/-- The block index of every window at every grid point: the resident operands stay at block (0, 0), the row-tiled
    ones are at block (t, 0), the bias and the output at block (0, t). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## Where each block's entries lie in its array -/

theorem emb0 (t : Fin cfg0.N) (p : Fin 1024) (k : Fin 4096) :
    ((cfg0.win 0).blk t).view.emb (ix2 p k) = ix2 p k := by
  obtain ⟨e0, e1, -⟩ := idx_facts t
  funext a; apply Fin.ext
  match a with
  | ⟨0, _⟩ => show win0_0.index t (0 : Fin 2) * 1024 + 1 * p.val = p.val; rw [e0]; omega
  | ⟨1, _⟩ => show win0_0.index t (1 : Fin 2) * 4096 + 1 * k.val = k.val; rw [e1]; omega

theorem emb1 (t : Fin cfg0.N) (n : Fin 128) (k : Fin 4096) :
    ((cfg0.win 1).blk t).view.emb (ix2 n k) = ix2 (col t.val (t_lt t) n) k := by
  obtain ⟨-, -, e0, e1, -⟩ := idx_facts t
  funext a; apply Fin.ext
  match a with
  | ⟨0, _⟩ => show win0_1.index t (0 : Fin 2) * 128 + 1 * n.val = t.val * 128 + n.val; rw [e0]; omega
  | ⟨1, _⟩ => show win0_1.index t (1 : Fin 2) * 4096 + 1 * k.val = k.val; rw [e1]; omega

theorem emb2 (t : Fin cfg0.N) (n : Fin 128) (r : Fin 16) :
    ((cfg0.win 2).blk t).view.emb (ix2 n r) = ix2 (col t.val (t_lt t) n) r := by
  obtain ⟨-, -, -, -, e0, e1, -⟩ := idx_facts t
  funext a; apply Fin.ext
  match a with
  | ⟨0, _⟩ => show win0_2.index t (0 : Fin 2) * 128 + 1 * n.val = t.val * 128 + n.val; rw [e0]; omega
  | ⟨1, _⟩ => show win0_2.index t (1 : Fin 2) * 16 + 1 * r.val = r.val; rw [e1]; omega

theorem emb3 (t : Fin cfg0.N) (r : Fin 16) (k : Fin 4096) :
    ((cfg0.win 3).blk t).view.emb (ix2 r k) = ix2 r k := by
  obtain ⟨-, -, -, -, -, -, e0, e1, -⟩ := idx_facts t
  funext a; apply Fin.ext
  match a with
  | ⟨0, _⟩ => show win0_3.index t (0 : Fin 2) * 16 + 1 * r.val = r.val; rw [e0]; omega
  | ⟨1, _⟩ => show win0_3.index t (1 : Fin 2) * 4096 + 1 * k.val = k.val; rw [e1]; omega

theorem emb4 (t : Fin cfg0.N) (n : Fin 128) (g : Fin 32) :
    ((cfg0.win 4).blk t).view.emb (ix2 n g) = ix2 (col t.val (t_lt t) n) g := by
  obtain ⟨-, -, -, -, -, -, -, -, e0, e1, -⟩ := idx_facts t
  funext a; apply Fin.ext
  match a with
  | ⟨0, _⟩ => show win0_4.index t (0 : Fin 2) * 128 + 1 * n.val = t.val * 128 + n.val; rw [e0]; omega
  | ⟨1, _⟩ => show win0_4.index t (1 : Fin 2) * 32 + 1 * g.val = g.val; rw [e1]; omega

theorem emb5 (t : Fin cfg0.N) (n : Fin 128) :
    ((cfg0.win 5).blk t).view.emb (ix2 (0 : Fin 1) n) = ix2 (0 : Fin 1) (col t.val (t_lt t) n) := by
  obtain ⟨-, -, -, -, -, -, -, -, -, -, e0, e1, -⟩ := idx_facts t
  funext a; apply Fin.ext
  match a with
  | ⟨0, _⟩ => show win0_5.index t (0 : Fin 2) * 1 + 1 * 0 = 0; rw [e0]
  | ⟨1, _⟩ => show win0_5.index t (1 : Fin 2) * 128 + 1 * n.val = t.val * 128 + n.val; rw [e1]; omega

theorem emb6 (t : Fin cfg0.N) (p : Fin 1024) (q : Fin 128) :
    ((cfg0.win 6).blk t).view.emb (ix2 p q) = ix2 p (col t.val (t_lt t) q) := by
  obtain ⟨-, -, -, -, -, -, -, -, -, -, -, -, e0, e1⟩ := idx_facts t
  funext a; apply Fin.ext
  match a with
  | ⟨0, _⟩ => show win0_6.index t (0 : Fin 2) * 1024 + 1 * p.val = p.val; rw [e0]; omega
  | ⟨1, _⟩ => show win0_6.index t (1 : Fin 2) * 128 + 1 * q.val = t.val * 128 + q.val; rw [e1]; omega

/-! ## What point `t` writes back -/

/-- Block `t` of `Y` of the six arrays as the region finds them. -/
theorem flushed_eq (c : Dev nD) (t : Fin cfg0.N) :
    (dats m 0 c).flushed 6 t = ((cfg0.win 6).blk t).view.read (Elt Ideal)
      (Y (V m c main_v0) (V m c main_arg1) (V m c main_arg2) (V m c main_arg3) (V m c main_v1) (V m c main_v2)) := by
  show (cfg0.win 6).cut (grid0.coords t) ((dats m 0 c).after 6 t) = _
  rw [after0_6]
  unfold out0_6
  rw [View.canon_unit_zero hz]
  simp only [View.ld_unit_zero (S := S128x16) hz, View.ld_unit_zero (S := S16x4096) hz,
    View.ld_unit_zero (S := S128x4096) hz, View.ld_unit_zero (S := S128x32) hz,
    View.ld_unit_zero (S := S1024x4096) hz, View.ld_unit_zero (S := S1x128) hz]
  refine funext fun (y : S1024x128.Idx) => ?_
  obtain ⟨p, q, rfl⟩ : ∃ (p : Fin 1024) (q : Fin 128), y = ix2 p q := ⟨y 0, y 1, eq_ix2 y⟩
  show k0_pay1 (F := Ideal) (iblk m c 2 t) (iblk m c 3 t) (iblk m c 1 t) (iblk m c 4 t) (iblk m c 0 t) (iblk m c 5 t) (ix2 p q)
    = Y (V m c main_v0) (V m c main_arg1) (V m c main_arg2) (V m c main_arg3) (V m c main_v1) (V m c main_v2)
      (((cfg0.win 6).blk t).view.emb (ix2 p q))
  rw [emb6, Y_ix2]
  refine blk_value _ _ _ _ _ _ t.val (t_lt t) _ _ _ _ _ _ ?_ ?_ ?_ ?_ ?_ ?_ p q
  · intro p k
    show V m c main_v0 (((cfg0.win 0).blk t).view.emb (ix2 p k)) = _
    rw [emb0]
  · intro n k
    show V m c main_arg1 (((cfg0.win 1).blk t).view.emb (ix2 n k)) = _
    rw [emb1]
  · intro n r
    show V m c main_arg3 (((cfg0.win 2).blk t).view.emb (ix2 n r)) = _
    rw [emb2]
  · intro r k
    show V m c main_arg2 (((cfg0.win 3).blk t).view.emb (ix2 r k)) = _
    rw [emb3]
  · intro n g
    show V m c main_v1 (((cfg0.win 4).blk t).view.emb (ix2 n g)) = _
    rw [emb4]
  · intro n
    show V m c main_v2 (((cfg0.win 5).blk t).view.emb (ix2 (0 : Fin 1) n)) = _
    rw [emb5]

/-! ## The 32 column blocks cover the output -/

theorem mem_blk6 (t : Fin cfg0.N) (i : S1024x4096.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_v3).slice (win0_6.rect t)).set ↔ _
  rw [View.set_slice_whole, Rect.mem_set_unit]
  exact Iff.rfl

/-- Column `j` lies in the block of point `j / 128`. -/
theorem cover (i : S1024x4096.Idx) :
    ∃ t : Fin cfg0.N, (cfg0.win 6).flush t = true ∧ i ∈ ((cfg0.win 6).blk t).view.set := by
  have h0 : (i 0).val < 1024 := (i 0).isLt
  have h1 : (i 1).val < 4096 := (i 1).isLt
  let t : Fin cfg0.N := ⟨(i 1).val / 128, by show (i 1).val / 128 < 32; omega⟩
  obtain ⟨-, -, -, -, -, -, -, -, -, -, -, -, e0, e1⟩ := idx_facts t
  have e1' : win0_6.index t (1 : Fin 2) = (i 1).val / 128 := e1
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e0]; omega
  | ⟨1, _⟩ =>
    show win0_6.index t (1 : Fin 2) * 128 ≤ (i 1).val ∧ (i 1).val < win0_6.index t (1 : Fin 2) * 128 + 128
    rw [e1']; omega

/-- The output array after the run. -/
theorem final (c : Dev nD) : (dats m 0 c).arrAt 6 cfg0.N
    = Y (V m c main_v0) (V m c main_arg1) (V m c main_arg2) (V m c main_arg3) (V m c main_v1) (V m c main_v2) :=
  (dats m 0 c).arrAt_eq_of_cover 6 _ (fun t _ => flushed_eq m c t) cover

/-! ## The reshapes before and after the region -/

theorem V_v0 (c : Dev nD) : (V m c main_v0 : S1024x4096.Idx → EReal)
    = shapeCast S1024x4096 (m ((c : Thread nD τ).loc main_arg0)) Gen.shapeCasts_S2x512x4096_S1024x4096 := by
  show StableHlo.after hostOps0 (fun b => m (c, b)) (Proc.devRef .tc main_v0) = _
  after_results <;> rfl

theorem V_v1 (c : Dev nD) : (V m c main_v1 : S4096x32.Idx → EReal)
    = shapeCast S4096x32 (m ((c : Thread nD τ).loc main_arg4)) Gen.shapeCasts_S131072_S4096x32 := by
  show StableHlo.after hostOps0 (fun b => m (c, b)) (Proc.devRef .tc main_v1) = _
  after_results <;> rfl

theorem V_v2 (c : Dev nD) : (V m c main_v2 : S1x4096.Idx → EReal)
    = shapeCast S1x4096 (m ((c : Thread nD τ).loc main_arg5)) Gen.shapeCasts_S4096_S1x4096 := by
  show StableHlo.after hostOps0 (fun b => m (c, b)) (Proc.devRef .tc main_v2) = _
  after_results <;> rfl

/-- The result buffer after the reshape that follows the region. -/
theorem tail_v4 (c : Dev nD) :
    Pipeline.afterTail₀ cfgs (dats m) 0 (V0 m) [hostOps1] c main_v4
      = shapeCast S2x512x4096 ((dats m 0 c).arrAt 6 cfg0.N) Gen.shapeCasts_S1024x4096_S2x512x4096 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
    = (dats m 0 c).arrAt 6 cfg0.N from Pipeline.withArrays_arr spec0 launch0.win.arr_inj c _ _ 6]
  rfl

/-- The result buffer is the specified function of the argument arrays. -/
theorem result (c : Dev nD) :
    shapeCast S2x512x4096 ((dats m 0 c).arrAt 6 cfg0.N) Gen.shapeCasts_S1024x4096_S2x512x4096
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final m c, V_v0, V_v1, V_v2, V_main_arg1, V_main_arg2, V_main_arg3]
  exact Y_view _ _ _ _ _ _ _ _ _ _

/-! ## The run -/

/-- Every weakly fair execution of the kernel program terminates with the result buffer at the specified function of
    the argument arrays, and the argument arrays unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans ((tail_v4 m c).trans (result m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KVal

end
-- ==== Proof.RefStages.lean ====
/-
  The reference program, stage by stage, is the specified function.

  Its corrected weight `w0 + 1 · (lora_b · lora_a)` is laid out as 131072 rows of 128 so that each row shares a scale
  (row `g` uses scale `g`); entry (n, k) of the 4096 × 4096 weight lies in row `(4096 n + k) / 128 = 32 n + k / 128`, at
  place `k % 128`, and is read back at (n, k) after the quantisation. The contraction of the input rows with the
  quantised weight and the added bias are then the specification's sum, index by index.
-/
import proofs.«155282_j80745385165259_1_alg».proof.Proof.Gen.ReferenceIdeal.Read
import proofs.«155282_j80745385165259_1_alg».proof.Proof.Spec

noncomputable section

open scoped BigOperators

namespace Cert.RefStages

open Cert.ReferenceIdeal Cert.ReferenceIdeal.Read Idealize.ShloMosaic Idealize.ShloMosaic.ValueIdx Cert.Spec

/-! ## The composed index functions, at coordinates -/

theorem lidx_v0 (n k : Fin 4096) (r : Fin 16) : lidx_main_v0 (ix2 n k) r = ix2 n r :=
  funext fun a => Fin.ext (by match a with | ⟨0, _⟩ => rfl | ⟨1, _⟩ => rfl)

theorem ridx_v0 (n k : Fin 4096) (r : Fin 16) : ridx_main_v0 (ix2 n k) r = ix2 r k :=
  funext fun a => Fin.ext (by match a with | ⟨0, _⟩ => rfl | ⟨1, _⟩ => rfl)

/-- Entry (n, k) of the weight, sent to the 131072 × 128 layout and back, is entry (n, k). -/
theorem idx_v4_v14 (n k : Fin 4096) : idx_main_v4 (idx_main_v14 (ix2 n k)) = ix2 n k :=
  funext fun a => Fin.ext (by
    have hn := n.isLt; have hk := k.isLt
    match a with
    | ⟨0, _⟩ =>
      show ((n.val * 4096 + k.val) / 128 * 128 + (n.val * 4096 + k.val) % 128) / 4096 = n.val
      omega
    | ⟨1, _⟩ =>
      show ((n.val * 4096 + k.val) / 128 * 128 + (n.val * 4096 + k.val) % 128) % 4096 = k.val
      omega)

/-- Entry (n, k) of the weight uses scale number `32 n + k / 128`. -/
theorem idx_v5_v8_v14 (n k : Fin 4096) : idx_main_v5 (idx_main_v8 (idx_main_v14 (ix2 n k))) = ix1 (grp n k) :=
  funext fun a => Fin.ext (by
    have hn := n.isLt; have hk := k.isLt
    match a with
    | ⟨0, _⟩ =>
      show (n.val * 4096 + k.val) / 128 = n.val * 32 + k.val / 128
      omega)

theorem lidx_v15 (b : Fin 2) (s : Fin 512) (n k : Fin 4096) : lidx_main_v15 (ix3 b s n) k = ix3 b s k :=
  funext fun a => Fin.ext (by match a with | ⟨0, _⟩ => rfl | ⟨1, _⟩ => rfl | ⟨2, _⟩ => rfl)

theorem ridx_v15 (b : Fin 2) (s : Fin 512) (n k : Fin 4096) : ridx_main_v15 (ix3 b s n) k = ix2 n k :=
  funext fun a => Fin.ext (by match a with | ⟨0, _⟩ => rfl | ⟨1, _⟩ => rfl)

theorem idx_v16_v17 (b : Fin 2) (s : Fin 512) (n : Fin 4096) : idx_main_v16 (idx_main_v17 (ix3 b s n)) = ix1 n :=
  funext fun a => Fin.ext (by match a with | ⟨0, _⟩ => rfl)

/-! ## The stages -/

variable (x0 : (⟨S2x512x4096, .f32⟩ : BufTy).Contents (Elt Ideal)) (x1 : (⟨S4096x4096, .f32⟩ : BufTy).Contents (Elt Ideal))
  (x2 : (⟨S16x4096, .f32⟩ : BufTy).Contents (Elt Ideal)) (x3 : (⟨S4096x16, .f32⟩ : BufTy).Contents (Elt Ideal))
  (x4 : (⟨S131072, .f32⟩ : BufTy).Contents (Elt Ideal)) (x5 : (⟨S4096, .f32⟩ : BufTy).Contents (Elt Ideal))

/-- The corrected weight, entry by entry. -/
theorem v3_apply (n k : Fin 4096) : val_main_v3 (F := Ideal) x1 x2 x3 (ix2 n k) = wcomb x1 x2 x3 n k := by
  rw [val_main_v3_apply, val_main_v2_apply, val_main_v1_apply, val_main_cst_apply, val_main_v0_apply]
  simp only [lidx_v0, ridx_v0, Ideal.addf_def, Ideal.mulf_def, Ideal.ofBits_def]
  rfl

/-- The quantised weight, read back at (n, k). -/
theorem v14_apply (n k : Fin 4096) : val_main_v14 (F := Ideal) x1 x2 x3 x4 (ix2 n k) = wq x1 x2 x3 x4 n k := by
  rw [val_main_v14_apply, val_main_v13_apply, val_main_v11_apply, val_main_v10_apply, val_main_call0_v4_apply,
    val_main_call0_v3_apply, val_main_c_1_apply, val_main_call0_v2_apply, val_main_call0_v1_apply, val_main_call0_v0_apply,
    val_main_c_apply, val_main_v9_apply, val_main_v4_apply, val_main_v8_apply, val_main_v7_apply, val_main_v5_apply,
    val_main_v6_apply, val_main_cst_0_apply, val_main_v12_apply, val_main_v5_apply,
    idx_v4_v14, idx_v5_v8_v14, v3_apply, sitofp_7, sitofp_neg8]
  simp only [Ideal.addf_def, Ideal.mulf_def, Ideal.ofBits_def, Ideal.hostDivf_def, Ideal.maximumf_def, Ideal.minimumf_def,
    Ideal.hostUnary_roundeven_def]
  rfl

/-- The reference's result is the specified function. -/
theorem result_eq : val_main_v18 (F := Ideal) x0 x1 x2 x3 x4 x5 = G x0 x1 x2 x3 x4 x5 := by
  funext i
  obtain ⟨b, s, n, rfl⟩ : ∃ (b : Fin 2) (s : Fin 512) (n : Fin 4096), i = ix3 b s n := ⟨i 0, i 1, i 2, eq_ix3 i⟩
  rw [val_main_v18_apply, val_main_v15_apply, val_main_v17_apply, val_main_v16_apply, idx_v16_v17, G_ix3]
  simp only [lidx_v15, ridx_v15, v14_apply, Ideal.addf_def]
  rfl

end Cert.RefStages

end
-- ==== Proof.lean ====
/-
  The kernel fuses a low-rank weight correction, a grouped 4-bit fake quantisation and a linear layer:
  `out (b, s, n) = Σ_k x (b, s, k) · wq (n, k) + bias n`, where `wq (n, k)` is the corrected weight
  `w0 (n, k) + 1 · Σ_r lora_b (n, r) · lora_a (r, k)` divided by its group's scale plus `ε`, clamped to [-8, 7], rounded
  half to even and multiplied by the scale; 128 consecutive entries of a weight row share scale number `32 n + k / 128`.

  The kernel computes this for 128 output features per grid point, with the row viewed as 32 runs of 128 and the scales
  as a 4096 × 32 table, on bf16-narrowed operands (the identity over the extended reals) and as matrix products into a
  zero accumulator (plain sums). The reference reshapes the whole weight to 131072 × 128, quantises, reshapes back and
  contracts. Over the extended reals both are the same sums of the same terms, entry by entry: no algebraic law beyond
  the re-indexing of the two layouts is needed, and the precondition is not used. The clamp bounds are float words on
  one side and converted integers on the other; both are the reals -8 and 7.
-/
import proofs.«155282_j80745385165259_1_alg».proof.Defs
import proofs.«155282_j80745385165259_1_alg».proof.Proof.Gen.Kernel
import proofs.«155282_j80745385165259_1_alg».proof.Proof.Gen.Kernel.Skeleton
import proofs.«155282_j80745385165259_1_alg».proof.Proof.Gen.Kernel.Launch
import proofs.«155282_j80745385165259_1_alg».proof.Proof.Gen.Kernel.Points
import proofs.«155282_j80745385165259_1_alg».proof.Proof.Gen.Kernel.Frame
import proofs.«155282_j80745385165259_1_alg».proof.Proof.Gen.KernelIdeal
import proofs.«155282_j80745385165259_1_alg».proof.Proof.Gen.KernelIdeal.Skeleton
import proofs.«155282_j80745385165259_1_alg».proof.Proof.Gen.KernelIdeal.Launch
import proofs.«155282_j80745385165259_1_alg».proof.Proof.Gen.KernelIdeal.Points
import proofs.«155282_j80745385165259_1_alg».proof.Proof.Gen.KernelIdeal.Frame
import proofs.«155282_j80745385165259_1_alg».proof.Proof.Gen.ReferenceIdeal
import proofs.«155282_j80745385165259_1_alg».proof.Proof.Gen.ReferenceIdeal.Run
import proofs.«155282_j80745385165259_1_alg».proof.Proof.Gen.ReferenceIdeal.Read
import proofs.«155282_j80745385165259_1_alg».proof.Proof.Gen.Pre_finite_inputs
import proofs.«155282_j80745385165259_1_alg».proof.Proof.KernelValue
import proofs.«155282_j80745385165259_1_alg».proof.Proof.RefStages
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specified function of the (agreeing) arguments in their result buffers. -/
theorem algebraic : Cert.algebraic_KernelIdeal_ReferenceIdeal := by
  intro m ρ m' ρ' _ hagree
  refine ⟨_, Cert.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefStages.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
